-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S10000x64 : Shape := ⟨2, ![10000, 64]⟩
abbrev S1x64 : Shape := ⟨2, ![1, 64]⟩

abbrev nBuf : Space → Nat
  | .hbm => 109
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x64, .f32⟩
  | .hbm, ⟨84, _⟩ => ⟨S_, .f32⟩
  | .hbm, ⟨85, _⟩ => ⟨S100000x64, .f32⟩
  | .hbm, ⟨86, _⟩ => ⟨S1700000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S10000x64, .f32⟩
  | .local _ .vmem, ⟨21, _⟩ => ⟨S10000x64, .f32⟩
  | .local _ .vmem, ⟨22, _⟩ => ⟨S5000x128, .f32⟩
  | .local _ .vmem, ⟨23, _⟩ => ⟨S5000x128, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | .local _ .vmem, ⟨27, _⟩ => ⟨S10000x64, .f32⟩
  | .local _ .vmem, ⟨28, _⟩ => ⟨S10000x64, .f32⟩
  | .local _ .vmem, ⟨29, _⟩ => ⟨S10000x1, .f32⟩
  | .local _ .vmem, ⟨30, _⟩ => ⟨S10000x1, .f32⟩
  | .local _ .vmem, ⟨31, _⟩ => ⟨S10000x64, .f32⟩
  | .local _ .vmem, ⟨32, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![170], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S10000x1_S10000x64 : S10000x1.Broadcasts S10000x64
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1700000x64.size a
  hwx3_0 : ∀ i : grid3.Coords, EltTy.bits .f32 = 32 ∨ (Rect.block (s := S1700000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S1700000x1.size a
  hwx3_1 : ∀ i : grid3.Coords, EltTy.bits .f32 = 32 ∨ (Rect.block (s := S1700000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S1700000x64.size a
  hwx3_2 : ∀ i : grid3.Coords, EltTy.bits .f32 = 32 ∨ (Rect.block (s := S1700000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1700000x64.size a
  hwx5_0 : ∀ i : grid5.Coords, EltTy.bits .f32 = 32 ∨ (Rect.block (s := S1700000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S1700000x1.size a
  hwx5_1 : ∀ i : grid5.Coords, EltTy.bits .f32 = 32 ∨ (Rect.block (s := S1700000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S1700000x64.size a
  hwx5_2 : ∀ i : grid5.Coords, EltTy.bits .f32 = 32 ∨ (Rect.block (s := S1700000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v48) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v32) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v72) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x64, .f32⟩
  | .hbm, ⟨104, _⟩ => ⟨S1700000x64, .f32⟩
  | .hbm, ⟨105, _⟩ => ⟨S_, .f32⟩
  | .hbm, ⟨106, _⟩ => ⟨S100000x64, .f32⟩
  | .hbm, ⟨107, _⟩ => ⟨S1700000x1, .i32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.RefSide.lean ====
/-
  The reference program, read for the comparison with the kernel.

  The reference computes three graph-convolution layers. Each layer is: a dense product `h · W` (a `dot_general` contracting
  the feature axis), a row gather by the source node of every edge, a scaling of every gathered row by that edge's
  normalisation weight (a column `[E, 1]` broadcast along the feature axis, then a pointwise product), a scatter-add by the
  destination node, and a bias. Gather, scatter and the index arithmetic are carried through the comparison as opaque
  functions; what is READ at an index is only the dense product and the edge scaling, the two steps the kernel computes in
  its own tiled regions. This module names those two steps as functions of their operands and reads each at an index over the
  extended reals:

    (h · W) [r, n]   = Σ_k h[r, k] · W[k, n]              (`mmA_apply`, `mmB_apply`)
    (g ⊙ nrm) [e, n] = g[e, n] · nrm[e, 0]                (`scaleA_apply`, `scaleB_apply`)

  and re-posts the reference's run over the per-operation stages of the read-back module (`ref_run`).
-/
import proofs.«128578_j36627481101161_1_alg».proof.Defs
import proofs.«128578_j36627481101161_1_alg».proof.Proof.RefRun
import proofs.«128578_j36627481101161_1_alg».proof.Proof.RefRead
import Idealize.ShloMosaic.Lib.Pipeline.Value
import Idealize.ShloMosaic.Lib.ValueIdx
import Idealize.ShloMosaic.PureOps.Ideal.Laws

noncomputable section

namespace Cert.ReferenceIdeal.RefSide

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-! ## The dense products -/

/-- The first layer's dense product: a node-feature array `[N, 128]` times a weight matrix `[128, 128]`. -/
def mmA (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- The two output layers' dense product: a hidden array `[N, 128]` times a weight matrix `[128, 64]`. -/
def mmB (h : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none h w

/-- Over the extended reals the first product's entry `[r, n]` is the sum over the feature axis `k` of `h[r, k] · w[k, n]`. -/
theorem mmA_apply (h : (⟨S100000x128, .f32⟩ : BufTy).Contents (Elt Ideal)) (w : (⟨S128x128, .f32⟩ : BufTy).Contents (Elt Ideal))
    (i : S100000x128.Idx) :
    mmA (F := Ideal) h w i = ∑ k : Fin 128, h (lidx_main_v33 i k) * w (ridx_main_v33 i k) :=
  val_main_v33_apply h w i

/-- The same for the `[N, 128] · [128, 64]` product. -/
theorem mmB_apply (h : (⟨S100000x128, .f32⟩ : BufTy).Contents (Elt Ideal)) (w : (⟨S128x64, .f32⟩ : BufTy).Contents (Elt Ideal))
    (i : S100000x64.Idx) :
    mmB (F := Ideal) h w i = ∑ k : Fin 128, h (lidx_main_v50 i k) * w (ridx_main_v50 i k) := by
  unfold mmB
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = lidx_main_v50 i k := funext fun a => Fin.ext (by
    match a with
    | ⟨0, _⟩ => exact lhs_main_v50_0 _ _
    | ⟨1, _⟩ => exact (lhs_main_v50_1 _ _).trans hk)
  have er : dot_S100000x128_S128x64_S100000x64_1_0_0_1_n_n.rhsIdx i ((ValueIdx.contrEquiv1 dot_S100000x128_S128x64_S100000x64_1_0_0_1_n_n 128 rfl rfl).symm k) = ridx_main_v50 i k := funext fun a => Fin.ext (by
    match a with
    | ⟨0, _⟩ => exact (rhs_main_v50_0 _ _).trans hk
    | ⟨1, _⟩ => exact rhs_main_v50_1 _ _)
  rw [el, er]

/-! ## The edge scalings -/

/-- A gathered message array `[E, 128]` scaled row by row by the edge weights `[E, 1]`. -/
def scaleA (g : (⟨S1700000x128, .f32⟩ : BufTy).Contents (Elt F)) (nrm : (⟨S1700000x1, .f32⟩ : BufTy).Contents (Elt F)) :
    (⟨S1700000x128, .f32⟩ : BufTy).Contents (Elt F) :=
  mulf g (broadcastInDim S1700000x128 ![0, 1] bcast_S1700000x1_S1700000x128_0_1 nrm)

/-- A gathered message array `[E, 64]` scaled row by row by the edge weights `[E, 1]`. -/
def scaleB (g : (⟨S1700000x64, .f32⟩ : BufTy).Contents (Elt F)) (nrm : (⟨S1700000x1, .f32⟩ : BufTy).Contents (Elt F)) :
    (⟨S1700000x64, .f32⟩ : BufTy).Contents (Elt F) :=
  mulf g (broadcastInDim S1700000x64 ![0, 1] bcast_S1700000x1_S1700000x64_0_1 nrm)

/-- Entry `[e, n]` of the scaled array is `g[e, n]` times the weight of edge `e`. -/
theorem scaleA_apply (g : (⟨S1700000x128, .f32⟩ : BufTy).Contents (Elt F)) (nrm : (⟨S1700000x1, .f32⟩ : BufTy).Contents (Elt F))
    (i : S1700000x128.Idx) :
    scaleA (F := F) g nrm i = FloatOps.mulf (g i) (nrm (idx_main_v41 i)) := by
  unfold scaleA
  show FloatOps.mulf (g i) (broadcastInDim S1700000x128 ![0, 1] bcast_S1700000x1_S1700000x128_0_1 nrm i) = _
  refine congrArg (FloatOps.mulf (g i)) ?_
  exact broadcastInDim_apply _ bcast_S1700000x1_S1700000x128_0_1 nrm i (idx_main_v41 i) (fun a => match a with
    | ⟨0, _⟩ => by show (i 0).val = if (1700000 : Nat) = 1 then 0 else (i 0).val; rw [if_neg (by decide)]
    | ⟨1, _⟩ => by show 0 = if (1 : Nat) = 1 then 0 else (i 1).val; rw [if_pos rfl])

/-- The same for the 64-wide messages. -/
theorem scaleB_apply (g : (⟨S1700000x64, .f32⟩ : BufTy).Contents (Elt F)) (nrm : (⟨S1700000x1, .f32⟩ : BufTy).Contents (Elt F))
    (i : S1700000x64.Idx) :
    scaleB (F := F) g nrm i = FloatOps.mulf (g i) (nrm (idx_main_v58 i)) := by
  unfold scaleB
  show FloatOps.mulf (g i) (broadcastInDim S1700000x64 ![0, 1] bcast_S1700000x1_S1700000x64_0_1 nrm i) = _
  refine congrArg (FloatOps.mulf (g i)) ?_
  exact broadcastInDim_apply _ bcast_S1700000x1_S1700000x64_0_1 nrm i (idx_main_v58 i) (fun a => match a with
    | ⟨0, _⟩ => by show (i 0).val = if (1700000 : Nat) = 1 then 0 else (i 0).val; rw [if_neg (by decide)]
    | ⟨1, _⟩ => by show 0 = if (1 : Nat) = 1 then 0 else (i 1).val; rw [if_pos rfl])

/-! ## The reference's stages over these -/

theorem val_main_v33_eq (x0 : (⟨S100000x128, .f32⟩ : BufTy).Contents (Elt F)) (x2 : (⟨S128x128, .f32⟩ : BufTy).Contents (Elt F)) :
    val_main_v33 (F := F) x0 x2 = mmA x0 x2 := rfl

/-! ## The reference's run over the stages -/

/-- Every weakly fair execution of the reference terminates with each result at its last stage's value of the
    arguments, the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v65_eq m c), (h c).2.1.trans (val_main_v81_eq m c), (h c).2.2⟩)
    (Cert.ReferenceIdeal.ValueP.run (F := F) m ρ)

end Cert.ReferenceIdeal.RefSide

end
-- ==== Proof.MM0.lean ====
/-
  Region 0 (the first layer's dense product), read as a value.

  The region walks twenty row blocks of 5000 rows. At block `t` it loads rows `5000·t … 5000·t + 4999` of the node features
  `X : [100000, 128]` and the whole weight matrix `W : [128, 128]`, rounds both to bf16 (the identity over the extended reals),
  multiplies them into a zero accumulator and stores the product as the same rows of the output. Entry `[r, n]` of a block's
  product is `Σ_k Xblock[r, k] · W[k, n]`, and `Xblock[r, k] = X[5000·t + r, k]`, so every block is the matching block of ONE
  array, `(X · W)[i, n] = Σ_k X[i, k] · W[k, n]`; the twenty blocks tile the output, so the output array ends holding `X · W`.
-/
import proofs.«128578_j36627481101161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MM0

open Cert.KernelIdeal Cert.KernelIdeal.Gen
open Idealize.ShloMosaic Idealize.ShloMosaic.TcCoe Idealize.SL.Sem
open Idealize.ShloMosaic.Pipeline (Dat Cfg Window)

/-! ## The product of whole arrays -/

/-- Row `i 0` of the left array at feature `k`. -/
abbrev lrow (i : S100000x128.Idx) (k : Fin 128) : S100000x128.Idx := fun a => match a with
  | ⟨0, _⟩ => ⟨(i 0).val, (i 0).isLt⟩
  | ⟨1, _⟩ => ⟨k.val, k.isLt⟩
/-- Feature `k` of the weight matrix at column `i 1`. -/
abbrev wcol (i : S100000x128.Idx) (k : Fin 128) : S128x128.Idx := fun a => match a with
  | ⟨0, _⟩ => ⟨k.val, k.isLt⟩
  | ⟨1, _⟩ => ⟨(i 1).val, (i 1).isLt⟩

/-- `(X · W)[i, n] = Σ_k X[i, k] · W[k, n]` over the extended reals. -/
def prod (X : S100000x128.Idx → EReal) (Wt : S128x128.Idx → EReal) : S100000x128.Idx → EReal :=
  fun i => ∑ k : Fin 128, X (lrow i k) * Wt (wcol i k)

/-! ## One block's product at an index -/

abbrev brow (j : S5000x128.Idx) (k : Fin 128) : S5000x128.Idx := fun a => match a with
  | ⟨0, _⟩ => ⟨(j 0).val, (j 0).isLt⟩
  | ⟨1, _⟩ => ⟨k.val, k.isLt⟩
abbrev bcol (j : S5000x128.Idx) (k : Fin 128) : S128x128.Idx := fun a => match a with
  | ⟨0, _⟩ => ⟨k.val, k.isLt⟩
  | ⟨1, _⟩ => ⟨(j 1).val, (j 1).isLt⟩

theorem lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at block index `j`: the row of the loaded feature block against the column of the loaded
    weights (the two roundings to bf16 are the identity over the extended reals; the accumulator is zero). -/
theorem pay_apply (x0 : Vec Ideal S5000x128 .f32) (x1 : Vec Ideal S128x128 .f32) (j : S5000x128.Idx) :
    k0_pay1 (F := Ideal) x0 x1 j = ∑ k : Fin 128, x0 (brow j k) * x1 (bcol j k) := by
  unfold k0_pay1
  show FloatOps.matmul (F := Ideal) dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = bcol j k := funext fun a => Fin.ext (by
    match a with
    | ⟨0, _⟩ => exact (rhs_0 _ _).trans hk
    | ⟨1, _⟩ => exact rhs_1 _ _)
  rw [el, er]
  rfl

/-! ## From the blocks to the array -/

theorem hz : (![0, 0] : Fin 2 → Nat) = fun _ => 0 := funext fun a => by fin_cases a <;> rfl

/-- The index maps over the grid: the feature window and the output window sit at row block `t`, column block 0; the
    weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b)) (c : Dev nD)

/-- What point `t` writes back is block `t` of the product of the two input arrays as the region finds them. -/
theorem flushed_eq (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (F := Ideal) (iblk0 V c 0 t) (iblk0 V c 1 t) j = prod (V c main_arg0) (V c main_arg2) (((cfg0.win 2).blk t).view.emb j)
  refine (pay_apply (iblk0 V c 0 t) (iblk0 V c 1 t) j).trans ?_
  unfold prod
  refine Finset.sum_congr rfl fun k _ => ?_
  have h0 : iblk0 V c 0 t (brow j k) = V c main_arg0 (lrow (((cfg0.win 2).blk t).view.emb j) k) := by
    show V c main_arg0 (((cfg0.win 0).blk t).view.emb (brow j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (bcol j k) = V c main_arg2 (wcol (((cfg0.win 2).blk t).view.emb j) k) := by
    show V c main_arg2 (((cfg0.win 1).blk t).view.emb (bcol j k)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row `r` of the output lies in the block of point `r / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The output array after the region: the product of the two input arrays. -/
theorem out_eq : (dat0 V c).arrAt 2 cfg0.N = prod (V c main_arg0) (V c main_arg2) :=
  (dat0 V c).arrAt_eq_of_cover 2 (prod (V c main_arg0) (V c main_arg2)) (fun t _ => flushed_eq V c t) (cover)

end Cert.KernelIdeal.MM0

end
-- ==== Proof.MM2.lean ====
/-
  Region 2 (the mean head's dense product), read as a value.

  The region walks twenty row blocks of 5000 rows. At block `t` it loads rows `5000·t … 5000·t + 4999` of the hidden features
  `H : [100000, 128]` and the whole weight matrix `W : [128, 64]`, rounds both to bf16 (the identity over the extended reals),
  multiplies them into a zero accumulator and stores the product as the same rows of the output `[100000, 64]`. Entry `[r, n]`
  of a block's product is `Σ_k Hblock[r, k] · W[k, n]` with `Hblock[r, k] = H[5000·t + r, k]`, so every block is the matching
  block of ONE array, `(H · W)[i, n] = Σ_k H[i, k] · W[k, n]`; the twenty blocks tile the output, which ends holding `H · W`.
-/
import proofs.«128578_j36627481101161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MM2

open Cert.KernelIdeal Cert.KernelIdeal.Gen
open Idealize.ShloMosaic Idealize.ShloMosaic.TcCoe Idealize.SL.Sem
open Idealize.ShloMosaic.Pipeline (Dat Cfg Window)

/-! ## The product of whole arrays -/

/-- Row `i 0` of the left array at feature `k`. -/
abbrev lrow (i : S100000x64.Idx) (k : Fin 128) : S100000x128.Idx := fun a => match a with
  | ⟨0, _⟩ => ⟨(i 0).val, (i 0).isLt⟩
  | ⟨1, _⟩ => ⟨k.val, k.isLt⟩
/-- Feature `k` of the weight matrix at column `i 1`. -/
abbrev wcol (i : S100000x64.Idx) (k : Fin 128) : S128x64.Idx := fun a => match a with
  | ⟨0, _⟩ => ⟨k.val, k.isLt⟩
  | ⟨1, _⟩ => ⟨(i 1).val, (i 1).isLt⟩

/-- `(H · W)[i, n] = Σ_k H[i, k] · W[k, n]` over the extended reals. -/
def prod (X : S100000x128.Idx → EReal) (Wt : S128x64.Idx → EReal) : S100000x64.Idx → EReal :=
  fun i => ∑ k : Fin 128, X (lrow i k) * Wt (wcol i k)

/-! ## One block's product at an index -/

abbrev brow (j : S5000x64.Idx) (k : Fin 128) : S5000x128.Idx := fun a => match a with
  | ⟨0, _⟩ => ⟨(j 0).val, (j 0).isLt⟩
  | ⟨1, _⟩ => ⟨k.val, k.isLt⟩
abbrev bcol (j : S5000x64.Idx) (k : Fin 128) : S128x64.Idx := fun a => match a with
  | ⟨0, _⟩ => ⟨k.val, k.isLt⟩
  | ⟨1, _⟩ => ⟨(j 1).val, (j 1).isLt⟩

theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at block index `j`: the row of the loaded feature block against the column of the loaded
    weights (the cast to the same shape and the two roundings to bf16 are the identity; the accumulator is zero). -/
theorem pay_apply (x0 : Vec Ideal S5000x128 .f32) (x1 : Vec Ideal S128x64 .f32) (j : S5000x64.Idx) :
    k2_pay1 (F := Ideal) x0 x1 j = ∑ k : Fin 128, x0 (brow j k) * x1 (bcol j k) := by
  unfold k2_pay1
  show FloatOps.matmul (F := Ideal) dot_S5000x128_S128x64_S5000x64_1_0_0_1_n_n none (truncf (F := Ideal) .bf16 (shapeCast S5000x128 x0 shapeCasts_S5000x128_S5000x128) bitsLt_bf16_f32) (truncf (F := Ideal) .bf16 x1 bitsLt_bf16_f32) (constant (F := Ideal) S5000x64 .f32 0x00000000#32) j = _
  rw [shapeCast_self, Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = bcol j k := funext fun a => Fin.ext (by
    match a with
    | ⟨0, _⟩ => exact (rhs_0 _ _).trans hk
    | ⟨1, _⟩ => exact rhs_1 _ _)
  rw [el, er]
  rfl

/-! ## From the blocks to the array -/

theorem hz : (![0, 0] : Fin 2 → Nat) = fun _ => 0 := funext fun a => by fin_cases a <;> rfl

/-- The index maps over the grid: the feature window and the output window sit at row block `t`, column block 0; the
    weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b)) (c : Dev nD)

/-- What point `t` writes back is block `t` of the product of the two input arrays as the region finds them. -/
theorem flushed_eq (t : Fin cfg2.N) :
    (dat2 V c).flushed 2 t = ((cfg2.win 2).blk t).view.read (Elt Ideal) (prod (V c main_v48) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  show k2_pay1 (F := Ideal) (iblk2 V c 0 t) (iblk2 V c 1 t) j = prod (V c main_v48) (V c main_arg4) (((cfg2.win 2).blk t).view.emb j)
  refine (pay_apply (iblk2 V c 0 t) (iblk2 V c 1 t) j).trans ?_
  unfold prod
  refine Finset.sum_congr rfl fun k _ => ?_
  have h0 : iblk2 V c 0 t (brow j k) = V c main_v48 (lrow (((cfg2.win 2).blk t).view.emb j) k) := by
    show V c main_v48 (((cfg2.win 0).blk t).view.emb (brow j k)) = _
    refine congrArg (V c main_v48) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (bcol j k) = V c main_arg4 (wcol (((cfg2.win 2).blk t).view.emb j) k) := by
    show V c main_arg4 (((cfg2.win 1).blk t).view.emb (bcol j k)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]

/-- An index of the output array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Row `r` of the output lies in the block of point `r / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_blk]
  obtain ⟨-, -, -, -, e4, e5⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- The output array after the region: the product of the two input arrays. -/
theorem out_eq : (dat2 V c).arrAt 2 cfg2.N = prod (V c main_v48) (V c main_arg4) :=
  (dat2 V c).arrAt_eq_of_cover 2 (prod (V c main_v48) (V c main_arg4)) (fun t _ => flushed_eq V c t) (cover)

end Cert.KernelIdeal.MM2

end
-- ==== Proof.MM4.lean ====
/-
  Region 4 (the log-variance head's dense product), read as a value.

  The region walks twenty row blocks of 5000 rows. At block `t` it loads rows `5000·t … 5000·t + 4999` of the hidden features
  `H : [100000, 128]` and the whole weight matrix `W : [128, 64]`, rounds both to bf16 (the identity over the extended reals),
  multiplies them into a zero accumulator and stores the product as the same rows of the output `[100000, 64]`. Entry `[r, n]`
  of a block's product is `Σ_k Hblock[r, k] · W[k, n]` with `Hblock[r, k] = H[5000·t + r, k]`, so every block is the matching
  block of ONE array, `(H · W)[i, n] = Σ_k H[i, k] · W[k, n]`; the twenty blocks tile the output, which ends holding `H · W`.
-/
import proofs.«128578_j36627481101161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.MM4

open Cert.KernelIdeal Cert.KernelIdeal.Gen
open Idealize.ShloMosaic Idealize.ShloMosaic.TcCoe Idealize.SL.Sem
open Idealize.ShloMosaic.Pipeline (Dat Cfg Window)

/-! ## The product of whole arrays -/

/-- Row `i 0` of the left array at feature `k`. -/
abbrev lrow (i : S100000x64.Idx) (k : Fin 128) : S100000x128.Idx := fun a => match a with
  | ⟨0, _⟩ => ⟨(i 0).val, (i 0).isLt⟩
  | ⟨1, _⟩ => ⟨k.val, k.isLt⟩
/-- Feature `k` of the weight matrix at column `i 1`. -/
abbrev wcol (i : S100000x64.Idx) (k : Fin 128) : S128x64.Idx := fun a => match a with
  | ⟨0, _⟩ => ⟨k.val, k.isLt⟩
  | ⟨1, _⟩ => ⟨(i 1).val, (i 1).isLt⟩

/-- `(H · W)[i, n] = Σ_k H[i, k] · W[k, n]` over the extended reals. -/
def prod (X : S100000x128.Idx → EReal) (Wt : S128x64.Idx → EReal) : S100000x64.Idx → EReal :=
  fun i => ∑ k : Fin 128, X (lrow i k) * Wt (wcol i k)

/-! ## One block's product at an index -/

abbrev brow (j : S5000x64.Idx) (k : Fin 128) : S5000x128.Idx := fun a => match a with
  | ⟨0, _⟩ => ⟨(j 0).val, (j 0).isLt⟩
  | ⟨1, _⟩ => ⟨k.val, k.isLt⟩
abbrev bcol (j : S5000x64.Idx) (k : Fin 128) : S128x64.Idx := fun a => match a with
  | ⟨0, _⟩ => ⟨k.val, k.isLt⟩
  | ⟨1, _⟩ => ⟨(j 1).val, (j 1).isLt⟩

theorem lhs_0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at block index `j`: the row of the loaded feature block against the column of the loaded
    weights (the cast to the same shape and the two roundings to bf16 are the identity; the accumulator is zero). -/
theorem pay_apply (x0 : Vec Ideal S5000x128 .f32) (x1 : Vec Ideal S128x64 .f32) (j : S5000x64.Idx) :
    k4_pay1 (F := Ideal) x0 x1 j = ∑ k : Fin 128, x0 (brow j k) * x1 (bcol j k) := by
  unfold k4_pay1
  show FloatOps.matmul (F := Ideal) dot_S5000x128_S128x64_S5000x64_1_0_0_1_n_n none (truncf (F := Ideal) .bf16 (shapeCast S5000x128 x0 shapeCasts_S5000x128_S5000x128) bitsLt_bf16_f32) (truncf (F := Ideal) .bf16 x1 bitsLt_bf16_f32) (constant (F := Ideal) S5000x64 .f32 0x00000000#32) j = _
  rw [shapeCast_self, Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = brow j k := funext fun a => Fin.ext (by
    match a with
    | ⟨0, _⟩ => exact lhs_0 _ _
    | ⟨1, _⟩ => exact (lhs_1 _ _).trans hk)
  have er : dot_S5000x128_S128x64_S5000x64_1_0_0_1_n_n.rhsIdx j ((ValueIdx.contrEquiv1 dot_S5000x128_S128x64_S5000x64_1_0_0_1_n_n 128 rfl rfl).symm k) = bcol j k := funext fun a => Fin.ext (by
    match a with
    | ⟨0, _⟩ => exact (rhs_0 _ _).trans hk
    | ⟨1, _⟩ => exact rhs_1 _ _)
  rw [el, er]
  rfl

/-! ## From the blocks to the array -/

theorem hz : (![0, 0] : Fin 2 → Nat) = fun _ => 0 := funext fun a => by fin_cases a <;> rfl

/-- The index maps over the grid: the feature window and the output window sit at row block `t`, column block 0; the
    weight window at block (0, 0). -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b)) (c : Dev nD)

/-- What point `t` writes back is block `t` of the product of the two input arrays as the region finds them. -/
theorem flushed_eq (t : Fin cfg4.N) :
    (dat4 V c).flushed 2 t = ((cfg4.win 2).blk t).view.read (Elt Ideal) (prod (V c main_v48) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨e0, e1, e2, e3, e4, e5⟩ := idx_facts t
  funext j
  show k4_pay1 (F := Ideal) (iblk4 V c 0 t) (iblk4 V c 1 t) j = prod (V c main_v48) (V c main_arg6) (((cfg4.win 2).blk t).view.emb j)
  refine (pay_apply (iblk4 V c 0 t) (iblk4 V c 1 t) j).trans ?_
  unfold prod
  refine Finset.sum_congr rfl fun k _ => ?_
  have h0 : iblk4 V c 0 t (brow j k) = V c main_v48 (lrow (((cfg4.win 2).blk t).view.emb j) k) := by
    show V c main_v48 (((cfg4.win 0).blk t).view.emb (brow j k)) = _
    refine congrArg (V c main_v48) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : iblk4 V c 1 t (bcol j k) = V c main_arg6 (wcol (((cfg4.win 2).blk t).view.emb j) k) := by
    show V c main_arg6 (((cfg4.win 1).blk t).view.emb (bcol j k)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  rw [h0, h1]

/-- An index of the output array is in point `t`'s block iff each coordinate is in the block's range on its axis. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v64).slice (win4_2.rect t)).set ↔ _
  rw [View.set_slice_whole, Rect.mem_set_unit]
  exact Iff.rfl

/-- Row `r` of the output lies in the block of point `r / 5000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_2 _, ?_⟩
  rw [mem_blk]
  obtain ⟨-, -, -, -, e4, e5⟩ := idx_facts ⟨(i 0).val / 5000, by rw [hN]; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 64 ≤ (i 1).val ∧ (i 1).val < win4_2.index _ (1 : Fin 2) * 64 + 64; rw [e5]; omega

/-- The output array after the region: the product of the two input arrays. -/
theorem out_eq : (dat4 V c).arrAt 2 cfg4.N = prod (V c main_v48) (V c main_arg6) :=
  (dat4 V c).arrAt_eq_of_cover 2 (prod (V c main_v48) (V c main_arg6)) (fun t _ => flushed_eq V c t) (cover)

end Cert.KernelIdeal.MM4

end
-- ==== Proof.RegionMM.lean ====
/-
  The three dense-product regions against the reference's `dot_general`.

  Each region leaves in its output array the row-by-column sums `Σ_k H[i, k] · W[k, n]` of its two input arrays (MM0, MM2, MM4);
  over the extended reals the reference's `dot_general` of the same two arrays is the same sum at every index
  (`RefSide.mmA_apply`, `mmB_apply`). So each region's output IS the reference's product of that region's inputs.
-/
import proofs.«128578_j36627481101161_1_alg».proof.Proof.Gen.KernelIdeal.Frame
import proofs.«128578_j36627481101161_1_alg».proof.Proof.RefSide
import proofs.«128578_j36627481101161_1_alg».proof.Proof.MM0
import proofs.«128578_j36627481101161_1_alg».proof.Proof.MM2
import proofs.«128578_j36627481101161_1_alg».proof.Proof.MM4

set_option maxRecDepth 16384

noncomputable section

namespace Cert.KernelIdeal.RegionMM

open Cert.KernelIdeal Cert.KernelIdeal.Gen
open Idealize.ShloMosaic Idealize.ShloMosaic.TcCoe Idealize.SL.Sem
open Idealize.ShloMosaic.Pipeline (Dat Cfg Window)
open Cert.ReferenceIdeal.RefSide (mmA mmB mmA_apply mmB_apply)
open Cert.ReferenceIdeal.ReadP (lidx_main_v33 ridx_main_v33 lidx_main_v50 ridx_main_v50)

/-- The kernel side's and the reference side's names for "row `i 0` at feature `k`" and "feature `k` at column `i 1`" are
    the same index, coordinate by coordinate. -/
theorem lrow0_eq (i : S100000x128.Idx) (k : Fin 128) : MM0.lrow i k = lidx_main_v33 i k :=
  funext fun a => match a with | ⟨0, _⟩ => rfl | ⟨1, _⟩ => rfl
theorem wcol0_eq (i : S100000x128.Idx) (k : Fin 128) : MM0.wcol i k = ridx_main_v33 i k :=
  funext fun a => match a with | ⟨0, _⟩ => rfl | ⟨1, _⟩ => rfl
theorem lrow2_eq (i : S100000x64.Idx) (k : Fin 128) : MM2.lrow i k = lidx_main_v50 i k :=
  funext fun a => match a with | ⟨0, _⟩ => rfl | ⟨1, _⟩ => rfl
theorem wcol2_eq (i : S100000x64.Idx) (k : Fin 128) : MM2.wcol i k = ridx_main_v50 i k :=
  funext fun a => match a with | ⟨0, _⟩ => rfl | ⟨1, _⟩ => rfl
theorem lrow4_eq (i : S100000x64.Idx) (k : Fin 128) : MM4.lrow i k = lidx_main_v50 i k :=
  funext fun a => match a with | ⟨0, _⟩ => rfl | ⟨1, _⟩ => rfl
theorem wcol4_eq (i : S100000x64.Idx) (k : Fin 128) : MM4.wcol i k = ridx_main_v50 i k :=
  funext fun a => match a with | ⟨0, _⟩ => rfl | ⟨1, _⟩ => rfl

variable (V : (c : Dev nD) → (b : Ref sig .tc) → Buf (Elt Ideal) ((c : Thread nD τ).loc b)) (c : Dev nD)

/-- Region 0 leaves `x · W1`. -/
theorem region0_out : (dat0 V c).arrAt 2 cfg0.N = mmA (F := Ideal) (V c main_arg0) (V c main_arg2) := by
  refine (MM0.out_eq V c).trans (funext fun i => ?_)
  rw [mmA_apply]
  unfold MM0.prod
  exact Finset.sum_congr rfl fun k _ => by rw [lrow0_eq, wcol0_eq]

/-- Region 2 leaves `h · Wmu`. -/
theorem region2_out : (dat2 V c).arrAt 2 cfg2.N = mmB (F := Ideal) (V c main_v48) (V c main_arg4) := by
  refine (MM2.out_eq V c).trans (funext fun i => ?_)
  rw [mmB_apply]
  unfold MM2.prod
  exact Finset.sum_congr rfl fun k _ => by rw [lrow2_eq, wcol2_eq]

/-- Region 4 leaves `h · Wlv`. -/
theorem region4_out : (dat4 V c).arrAt 2 cfg4.N = mmB (F := Ideal) (V c main_v48) (V c main_arg6) := by
  refine (MM4.out_eq V c).trans (funext fun i => ?_)
  rw [mmB_apply]
  unfold MM4.prod
  exact Finset.sum_congr rfl fun k _ => by rw [lrow4_eq, wcol4_eq]

end Cert.KernelIdeal.RegionMM

end
-- ==== Proof.Scale1.lean ====
/-
  Region 1 (an edge scaling), read as a value.

  The region walks 170 blocks of 10000 edges. At block `t` it loads edges `10000·t … 10000·t + 9999` of the gathered messages
  `G : [1700000, 128]` and of the edge weights `nrm : [1700000, 1]`, broadcasts the weight column along the 128 features, multiplies
  pointwise and stores the result as the same edges of the output. So entry `[e, n]` of a block is `Gblock[e, n] · nrmblock[e, 0]`,
  and every block is the matching block of ONE array, `(G ⊙ nrm)[e, n] = G[e, n] · nrm[e, 0]`; the 170 blocks tile the output.
-/
import proofs.«128578_j36627481101161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale1

open Cert.KernelIdeal Cert.KernelIdeal.Gen
open Idealize.ShloMosaic Idealize.ShloMosaic.TcCoe Idealize.SL.Sem
open Idealize.ShloMosaic.Pipeline (Dat Cfg Window)

/-! ## The scaled array -/

/-- The weight of the edge in row `i 0`: column 0 of the weight array. -/
abbrev wt (i : S1700000x128.Idx) : S1700000x1.Idx := fun a => match a with
  | ⟨0, _⟩ => ⟨(i 0).val, (i 0).isLt⟩
  | ⟨1, _⟩ => ⟨0, Nat.one_pos⟩

/-- `(G ⊙ nrm)[e, n] = G[e, n] · nrm[e, 0]` over the extended reals. -/
def scaled (G : S1700000x128.Idx → EReal) (nrm : S1700000x1.Idx → EReal) : S1700000x128.Idx → EReal :=
  fun i => G i * nrm (wt i)

/-! ## One block at an index -/

/-- The weight of the edge in row `j 0` of a block. -/
abbrev bwt (j : S10000x128.Idx) : S10000x1.Idx := fun a => match a with
  | ⟨0, _⟩ => ⟨(j 0).val, (j 0).isLt⟩
  | ⟨1, _⟩ => ⟨0, Nat.one_pos⟩

/-- The body's stored value at block index `j`: the message entry times its row's weight (the two casts to the same
    shape are the identity; the broadcast reads column 0 of the weight block). -/
theorem pay_apply (x0 : Vec Ideal S10000x128 .f32) (x1 : Vec Ideal S10000x1 .f32) (j : S10000x128.Idx) :
    k1_pay1 (F := Ideal) x0 x1 j = x0 j * x1 (bwt j) := by
  unfold k1_pay1
  show mulf (F := Ideal) (shapeCast S10000x128 x0 shapeCasts_S10000x128_S10000x128) (broadcastTo S10000x128 (shapeCast S10000x1 x1 shapeCasts_S10000x1_S10000x1) broadcasts_S10000x1_S10000x128) j = _
  rw [shapeCast_self, shapeCast_self]
  show x0 j * broadcastTo S10000x128 x1 broadcasts_S10000x1_S10000x128 j = _
  refine congrArg (x0 j * ·) ?_
  exact broadcastTo_apply x1 broadcasts_S10000x1_S10000x128 j (bwt j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

/-! ## From the blocks to the array -/

theorem hz : (![0, 0] : Fin 2 → Nat) = fun _ => 0 := funext fun a => by fin_cases a <;> rfl

/-- The index maps over the grid: all three windows sit at row block `t`, column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b)) (c : Dev nD)

/-- What point `t` writes back is block `t` of the scaled array of the two input arrays as the region finds them. -/
theorem flushed_eq (t : Fin cfg1.N) :
    (dat1 V c).flushed 2 t = ((cfg1.win 2).blk t).view.read (Elt Ideal) (scaled (V c main_v40) (V c main_v32)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := idx_facts t
  funext j
  show k1_pay1 (F := Ideal) (iblk1 V c 0 t) (iblk1 V c 1 t) j = scaled (V c main_v40) (V c main_v32) (((cfg1.win 2).blk t).view.emb j)
  refine (pay_apply (iblk1 V c 0 t) (iblk1 V c 1 t) j).trans ?_
  unfold scaled
  have h0 : iblk1 V c 0 t j = V c main_v40 (((cfg1.win 2).blk t).view.emb j) := by
    show V c main_v40 (((cfg1.win 0).blk t).view.emb j) = _
    refine congrArg (V c main_v40) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : iblk1 V c 1 t (bwt j) = V c main_v32 (wt (((cfg1.win 2).blk t).view.emb j)) := by
    show V c main_v32 (((cfg1.win 1).blk t).view.emb (bwt j)) = _
    refine congrArg (V c main_v32) (funext fun a => Fin.ext ?_)
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An index of the output array is in point `t`'s block iff each coordinate is in the block's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v41).slice (win1_2.rect t)).set ↔ _
  rw [View.set_slice_whole, Rect.mem_set_unit]
  exact Iff.rfl

/-- Edge `e` of the output lies in the block of point `e / 10000`. -/
theorem cover (i : S1700000x128.Idx) : ∃ t : Fin cfg1.N, (cfg1.win 2).flush t = true ∧ i ∈ ((cfg1.win 2).blk t).view.set := by
  have hi0 : (i 0).val < 1700000 := (i 0).isLt
  have hi1 : (i 1).val < 128 := (i 1).isLt
  have hN : cfg1.N = 170 := N_1
  refine ⟨⟨(i 0).val / 10000, by rw [hN]; omega⟩, flush1_2 _, ?_⟩
  rw [mem_blk]
  obtain ⟨-, -, -, -, e4, e5⟩ := idx_facts ⟨(i 0).val / 10000, by rw [hN]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e5]; omega

/-- The output array after the region: the scaled array of the two input arrays. -/
theorem out_eq : (dat1 V c).arrAt 2 cfg1.N = scaled (V c main_v40) (V c main_v32) :=
  (dat1 V c).arrAt_eq_of_cover 2 (scaled (V c main_v40) (V c main_v32)) (fun t _ => flushed_eq V c t) (cover)

end Cert.KernelIdeal.Scale1

end
-- ==== Proof.Scale3.lean ====
/-
  Region 3 (an edge scaling), read as a value.

  The region walks 170 blocks of 10000 edges. At block `t` it loads edges `10000·t … 10000·t + 9999` of the gathered messages
  `G : [1700000, 64]` and of the edge weights `nrm : [1700000, 1]`, broadcasts the weight column along the 64 features, multiplies
  pointwise and stores the result as the same edges of the output. So entry `[e, n]` of a block is `Gblock[e, n] · nrmblock[e, 0]`,
  and every block is the matching block of ONE array, `(G ⊙ nrm)[e, n] = G[e, n] · nrm[e, 0]`; the 170 blocks tile the output.
-/
import proofs.«128578_j36627481101161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale3

open Cert.KernelIdeal Cert.KernelIdeal.Gen
open Idealize.ShloMosaic Idealize.ShloMosaic.TcCoe Idealize.SL.Sem
open Idealize.ShloMosaic.Pipeline (Dat Cfg Window)

/-! ## The scaled array -/

/-- The weight of the edge in row `i 0`: column 0 of the weight array. -/
abbrev wt (i : S1700000x64.Idx) : S1700000x1.Idx := fun a => match a with
  | ⟨0, _⟩ => ⟨(i 0).val, (i 0).isLt⟩
  | ⟨1, _⟩ => ⟨0, Nat.one_pos⟩

/-- `(G ⊙ nrm)[e, n] = G[e, n] · nrm[e, 0]` over the extended reals. -/
def scaled (G : S1700000x64.Idx → EReal) (nrm : S1700000x1.Idx → EReal) : S1700000x64.Idx → EReal :=
  fun i => G i * nrm (wt i)

/-! ## One block at an index -/

/-- The weight of the edge in row `j 0` of a block. -/
abbrev bwt (j : S10000x64.Idx) : S10000x1.Idx := fun a => match a with
  | ⟨0, _⟩ => ⟨(j 0).val, (j 0).isLt⟩
  | ⟨1, _⟩ => ⟨0, Nat.one_pos⟩

/-- The body's stored value at block index `j`: the message entry times its row's weight (the two casts to the same
    shape are the identity; the broadcast reads column 0 of the weight block). -/
theorem pay_apply (x0 : Vec Ideal S10000x64 .f32) (x1 : Vec Ideal S10000x1 .f32) (j : S10000x64.Idx) :
    k3_pay1 (F := Ideal) x0 x1 j = x0 j * x1 (bwt j) := by
  unfold k3_pay1
  show mulf (F := Ideal) (shapeCast S10000x64 x0 shapeCasts_S10000x64_S10000x64) (broadcastTo S10000x64 (shapeCast S10000x1 x1 shapeCasts_S10000x1_S10000x1) broadcasts_S10000x1_S10000x64) j = _
  rw [shapeCast_self, shapeCast_self]
  show x0 j * broadcastTo S10000x64 x1 broadcasts_S10000x1_S10000x64 j = _
  refine congrArg (x0 j * ·) ?_
  exact broadcastTo_apply x1 broadcasts_S10000x1_S10000x64 j (bwt j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

/-! ## From the blocks to the array -/

theorem hz : (![0, 0] : Fin 2 → Nat) = fun _ => 0 := funext fun a => by fin_cases a <;> rfl

/-- The index maps over the grid: all three windows sit at row block `t`, column block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b)) (c : Dev nD)

/-- What point `t` writes back is block `t` of the scaled array of the two input arrays as the region finds them. -/
theorem flushed_eq (t : Fin cfg3.N) :
    (dat3 V c).flushed 2 t = ((cfg3.win 2).blk t).view.read (Elt Ideal) (scaled (V c main_v56) (V c main_v32)) := by
  show (cfg3.win 2).cut (grid3.coords t) ((dat3 V c).after 2 t) = _
  rw [after3_2]
  unfold out3_2
  rw [View.canon_unit_zero hz]
  simp only [View.ld_unit_zero (S := S10000x64) hz, View.ld_unit_zero (S := S10000x1) hz]
  obtain ⟨e0, e1, e2, e3, e4, e5⟩ := idx_facts t
  funext j
  show k3_pay1 (F := Ideal) (iblk3 V c 0 t) (iblk3 V c 1 t) j = scaled (V c main_v56) (V c main_v32) (((cfg3.win 2).blk t).view.emb j)
  refine (pay_apply (iblk3 V c 0 t) (iblk3 V c 1 t) j).trans ?_
  unfold scaled
  have h0 : iblk3 V c 0 t j = V c main_v56 (((cfg3.win 2).blk t).view.emb j) := by
    show V c main_v56 (((cfg3.win 0).blk t).view.emb j) = _
    refine congrArg (V c main_v56) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : iblk3 V c 1 t (bwt j) = V c main_v32 (wt (((cfg3.win 2).blk t).view.emb j)) := by
    show V c main_v32 (((cfg3.win 1).blk t).view.emb (bwt j)) = _
    refine congrArg (V c main_v32) (funext fun a => Fin.ext ?_)
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 1 + 1 * 0 = 0; omega
  rw [h0, h1]

/-- An index of the output array is in point `t`'s block iff each coordinate is in the block's range on its axis. -/
theorem mem_blk (t : Fin cfg3.N) (i : S1700000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v57).slice (win3_2.rect t)).set ↔ _
  rw [View.set_slice_whole, Rect.mem_set_unit]
  exact Iff.rfl

/-- Edge `e` of the output lies in the block of point `e / 10000`. -/
theorem cover (i : S1700000x64.Idx) : ∃ t : Fin cfg3.N, (cfg3.win 2).flush t = true ∧ i ∈ ((cfg3.win 2).blk t).view.set := by
  have hi0 : (i 0).val < 1700000 := (i 0).isLt
  have hi1 : (i 1).val < 64 := (i 1).isLt
  have hN : cfg3.N = 170 := N_3
  refine ⟨⟨(i 0).val / 10000, by rw [hN]; omega⟩, flush3_2 _, ?_⟩
  rw [mem_blk]
  obtain ⟨-, -, -, -, e4, e5⟩ := idx_facts ⟨(i 0).val / 10000, by rw [hN]; omega⟩
  intro a
  match a with
  | ⟨0, _⟩ => show win3_2.index _ (0 : Fin 2) * 10000 ≤ (i 0).val ∧ (i 0).val < win3_2.index _ (0 : Fin 2) * 10000 + 10000; rw [e4]; show (i 0).val / 10000 * 10000 ≤ (i 0).val ∧ (i 0).val < (i 0).val / 10000 * 10000 + 10000; omega
  | ⟨1, _⟩ => show win3_2.index _ (1 : Fin 2) * 64 ≤ (i 1).val ∧ (i 1).val < win3_2.index _ (1 : Fin 2) * 64 + 64; rw [e5]; omega

/-- The output array after the region: the scaled array of the two input arrays. -/
theorem out_eq : (dat3 V c).arrAt 2 cfg3.N = scaled (V c main_v56) (V c main_v32) :=
  (dat3 V c).arrAt_eq_of_cover 2 (scaled (V c main_v56) (V c main_v32)) (fun t _ => flushed_eq V c t) (cover)

end Cert.KernelIdeal.Scale3

end
-- ==== Proof.Scale5.lean ====
/-
  Region 5 (an edge scaling), read as a value.

  The region walks 170 blocks of 10000 edges. At block `t` it loads edges `10000·t … 10000·t + 9999` of the gathered messages
  `G : [1700000, 64]` and of the edge weights `nrm : [1700000, 1]`, broadcasts the weight column along the 64 features, multiplies
  pointwise and stores the result as the same edges of the output. So entry `[e, n]` of a block is `Gblock[e, n] · nrmblock[e, 0]`,
  and every block is the matching block of ONE array, `(G ⊙ nrm)[e, n] = G[e, n] · nrm[e, 0]`; the 170 blocks tile the output.
-/
import proofs.«128578_j36627481101161_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Scale5

open Cert.KernelIdeal Cert.KernelIdeal.Gen
open Idealize.ShloMosaic Idealize.ShloMosaic.TcCoe Idealize.SL.Sem
open Idealize.ShloMosaic.Pipeline (Dat Cfg Window)

/-! ## The scaled array -/

/-- The weight of the edge in row `i 0`: column 0 of the weight array. -/
abbrev wt (i : S1700000x64.Idx) : S1700000x1.Idx := fun a => match a with
  | ⟨0, _⟩ => ⟨(i 0).val, (i 0).isLt⟩
  | ⟨1, _⟩ => ⟨0, Nat.one_pos⟩

/-- `(G ⊙ nrm)[e, n] = G[e, n] · nrm[e, 0]` over the extended reals. -/
def scaled (G : S1700000x64.Idx → EReal) (nrm : S1700000x1.Idx → EReal) : S1700000x64.Idx → EReal :=
  fun i => G i * nrm (wt i)

/-! ## One block at an index -/

/-- The weight of the edge in row `j 0` of a block. -/
abbrev bwt (j : S10000x64.Idx) : S10000x1.Idx := fun a => match a with
  | ⟨0, _⟩ => ⟨(j 0).val, (j 0).isLt⟩
  | ⟨1, _⟩ => ⟨0, Nat.one_pos⟩

/-- The body's stored value at block index `j`: the message entry times its row's weight (the two casts to the same
    shape are the identity; the broadcast reads column 0 of the weight block). -/
theorem pay_apply (x0 : Vec Ideal S10000x64 .f32) (x1 : Vec Ideal S10000x1 .f32) (j : S10000x64.Idx) :
    k5_pay1 (F := Ideal) x0 x1 j = x0 j * x1 (bwt j) := by
  unfold k5_pay1
  show mulf (F := Ideal) (shapeCast S10000x64 x0 shapeCasts_S10000x64_S10000x64) (broadcastTo S10000x64 (shapeCast S10000x1 x1 shapeCasts_S10000x1_S10000x1) broadcasts_S10000x1_S10000x64) j = _
  rw [shapeCast_self, shapeCast_self]
  show x0 j * broadcastTo S10000x64 x1 broadcasts_S10000x1_S10000x64 j = _
  refine congrArg (x0 j * ·) ?_
  exact broadcastTo_apply x1 broadcasts_S10000x1_S10000x64 j (bwt j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])

/-! ## From the blocks to the array -/

theorem hz : (![0, 0] : Fin 2 → Nat) = fun _ => 0 := funext fun a => by fin_cases a <;> rfl

/-- The index maps over the grid: all three windows sit at row block `t`, column block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b)) (c : Dev nD)

/-- What point `t` writes back is block `t` of the scaled array of the two input arrays as the region finds them. -/
theorem flushed_eq (t : Fin cfg5.N) :
    (dat5 V c).flushed 2 t = ((cfg5.win 2).blk t).view.read (Elt Ideal) (scaled (V c main_v71) (V c main_v32)) := by
  show (cfg5.win 2).cut (grid5.coords t) ((dat5 V c).after 2 t) = _
  rw [after5_2]
  unfold out5_2
  rw [View.canon_unit_zero hz]
  simp only [View.ld_unit_zero (S := S10000x64) hz, View.ld_unit_zero (S := S10000x1) hz]
  obtain ⟨e0, e1, e2, e3, e4, e5⟩ := idx_facts t
  funext j
  show k5_pay1 (F := Ideal) (iblk5 V c 0 t) (iblk5 V c 1 t) j = scaled (V c main_v71) (V c main_v32) (((cfg5.win 2).blk t).view.emb j)
  refine (pay_apply (iblk5 V c 0 t) (iblk5 V c 1 t) j).trans ?_
  unfold scaled
  have h0 : iblk5 V c 0 t j = V c main_v71 (((cfg5.win 2).blk t).view.emb j) := by
    show V c main_v71 (((cfg5.win 0).blk t).view.emb j) = _
    refine congrArg (V c main_v71) (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : iblk5 V c 1 t (bwt j) = V c main_v32 (wt (((cfg5.win 2).blk t).view.emb j)) := by
    show V c main_v32 (((cfg5.win 1).blk t).view.emb (bwt j)) = _
    refine congrArg (V c main_v32) (funext fun a => Fin.ext ?_)
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 1 + 1 * 0 = 0; omega
  rw [h0, h1]

/-- An index of the output array is in point `t`'s block iff each coordinate is in the block's range on its axis. -/
theorem mem_blk (t : Fin cfg5.N) (i : S1700000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v72).slice (win5_2.rect t)).set ↔ _
  rw [View.set_slice_whole, Rect.mem_set_unit]
  exact Iff.rfl

/-- Edge `e` of the output lies in the block of point `e / 10000`. -/
theorem cover (i : S1700000x64.Idx) : ∃ t : Fin cfg5.N, (cfg5.win 2).flush t = true ∧ i ∈ ((cfg5.win 2).blk t).view.set := by
  have hi0 : (i 0).val < 1700000 := (i 0).isLt
  have hi1 : (i 1).val < 64 := (i 1).isLt
  have hN : cfg5.N = 170 := N_5
  refine ⟨⟨(i 0).val / 10000, by rw [hN]; omega⟩, flush5_2 _, ?_⟩
  rw [mem_blk]
  obtain ⟨-, -, -, -, e4, e5⟩ := idx_facts ⟨(i 0).val / 10000, by rw [hN]; omega⟩
  intro a
  match a with
  | ⟨0, _⟩ => show win5_2.index _ (0 : Fin 2) * 10000 ≤ (i 0).val ∧ (i 0).val < win5_2.index _ (0 : Fin 2) * 10000 + 10000; rw [e4]; show (i 0).val / 10000 * 10000 ≤ (i 0).val ∧ (i 0).val < (i 0).val / 10000 * 10000 + 10000; omega
  | ⟨1, _⟩ => show win5_2.index _ (1 : Fin 2) * 64 ≤ (i 1).val ∧ (i 1).val < win5_2.index _ (1 : Fin 2) * 64 + 64; rw [e5]; omega

/-- The output array after the region: the scaled array of the two input arrays. -/
theorem out_eq : (dat5 V c).arrAt 2 cfg5.N = scaled (V c main_v71) (V c main_v32) :=
  (dat5 V c).arrAt_eq_of_cover 2 (scaled (V c main_v71) (V c main_v32)) (fun t _ => flushed_eq V c t) (cover)

end Cert.KernelIdeal.Scale5

end
-- ==== Proof.RegionScale.lean ====
/-
  The three edge-scaling regions against the reference's broadcast and product.

  Each region leaves in its output array `G[e, n] · nrm[e, 0]` of its two input arrays (Scale1, Scale3, Scale5); the reference
  broadcasts the weight column along the feature axis and multiplies pointwise, which at every index is the same product
  (`RefSide.scaleA_apply`, `scaleB_apply`). So each region's output IS the reference's scaling of that region's inputs.
-/
import proofs.«128578_j36627481101161_1_alg».proof.Proof.Gen.KernelIdeal.Frame
import proofs.«128578_j36627481101161_1_alg».proof.Proof.RefSide
import proofs.«128578_j36627481101161_1_alg».proof.Proof.Scale1
import proofs.«128578_j36627481101161_1_alg».proof.Proof.Scale3
import proofs.«128578_j36627481101161_1_alg».proof.Proof.Scale5

set_option maxRecDepth 16384

noncomputable section

namespace Cert.KernelIdeal.RegionScale

open Cert.KernelIdeal Cert.KernelIdeal.Gen
open Idealize.ShloMosaic Idealize.ShloMosaic.TcCoe Idealize.SL.Sem
open Idealize.ShloMosaic.Pipeline (Dat Cfg Window)
open Cert.ReferenceIdeal.RefSide (scaleA scaleB scaleA_apply scaleB_apply)
open Cert.ReferenceIdeal.ReadP (idx_main_v41 idx_main_v58)

/-- The kernel side's and the reference side's names for "the weight of the edge in row `i 0`" are the same index. -/
theorem wt1_eq (i : S1700000x128.Idx) : Scale1.wt i = idx_main_v41 i :=
  funext fun a => match a with | ⟨0, _⟩ => rfl | ⟨1, _⟩ => rfl
theorem wt3_eq (i : S1700000x64.Idx) : Scale3.wt i = idx_main_v58 i :=
  funext fun a => match a with | ⟨0, _⟩ => rfl | ⟨1, _⟩ => rfl
theorem wt5_eq (i : S1700000x64.Idx) : Scale5.wt i = idx_main_v58 i :=
  funext fun a => match a with | ⟨0, _⟩ => rfl | ⟨1, _⟩ => rfl

variable (V : (c : Dev nD) → (b : Ref sig .tc) → Buf (Elt Ideal) ((c : Thread nD τ).loc b)) (c : Dev nD)

/-- Region 1 leaves the first layer's scaled messages. -/
theorem region1_out : (dat1 V c).arrAt 2 cfg1.N = scaleA (F := Ideal) (V c main_v40) (V c main_v32) := by
  refine (Scale1.out_eq V c).trans (funext fun i => ?_)
  rw [scaleA_apply]
  unfold Scale1.scaled
  rw [wt1_eq]
  rfl

/-- Region 3 leaves the mean head's scaled messages. -/
theorem region3_out : (dat3 V c).arrAt 2 cfg3.N = scaleB (F := Ideal) (V c main_v56) (V c main_v32) := by
  refine (Scale3.out_eq V c).trans (funext fun i => ?_)
  rw [scaleB_apply]
  unfold Scale3.scaled
  rw [wt3_eq]
  rfl

/-- Region 5 leaves the log-variance head's scaled messages. -/
theorem region5_out : (dat5 V c).arrAt 2 cfg5.N = scaleB (F := Ideal) (V c main_v71) (V c main_v32) := by
  refine (Scale5.out_eq V c).trans (funext fun i => ?_)
  rw [scaleB_apply]
  unfold Scale5.scaled
  rw [wt5_eq]
  rfl

end Cert.KernelIdeal.RegionScale

end
-- ==== Proof.Chain.lean ====
/-
  The kernel program's buffers at every segment boundary, as the reference's stages of the arguments.

  The kernel program and the reference run the same host operations around two kinds of step that the kernel computes in tiled
  regions of its own: the dense product `h · W` and the row-by-row edge scaling `g ⊙ nrm`. Going through the kernel's sixteen
  segments in order, each buffer a later segment reads is shown to hold the value the reference's corresponding stage computes
  from the same arguments:

    src / dst index lists, edge weights      (three host stretches)        = the reference's index lists and weights
    region 0:  x · W1                         (RegionMM.region0_out)        = the reference's first dot_general
    gather by src                             (host)                        = the reference's gather of it
    region 1:  gathered ⊙ weights             (RegionScale.region1_out)     = the reference's broadcast and product
    scatter-add by dst, + b1, relu            (host)                        = the reference's hidden layer h
    regions 2, 4:  h · Wmu, h · Wlv           (RegionMM.region2_out, 4)     = the reference's two dot_generals
    regions 3, 5 and the host tails           (as for the first layer)      = the reference's two results.

  A host stretch's result is read off the fold of its operations; a buffer a segment does not write is carried across it
  unchanged (a region writes only its three arrays, and leaves its two input arrays as it found them).
-/
import proofs.«128578_j36627481101161_1_alg».proof.Proof.Gen.KernelIdeal.Frame
import proofs.«128578_j36627481101161_1_alg».proof.Proof.RefSide
import proofs.«128578_j36627481101161_1_alg».proof.Proof.RegionMM
import proofs.«128578_j36627481101161_1_alg».proof.Proof.RegionScale
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem
open Idealize.ShloMosaic.Pipeline (Dat Cfg Window)
open Idealize.ShloMosaic.StableHlo
open Cert.ReferenceIdeal.ReadP
open Cert.ReferenceIdeal.RefSide (mmA mmB scaleA scaleB)
open Cert.KernelIdeal.RegionMM Cert.KernelIdeal.RegionScale

set_option quotPrecheck false

local notation "dr(" b ")" => Proc.devRef Proc.tc b

/-! ## The host stretches, at any float family

Each of these stretches applies to the buffers it reads exactly the operations the reference applies at the same place, so
over ANY incoming contents whose read buffers hold the reference's earlier stages, its result buffer holds the reference's
next stage: the two terms are the same operations of the same operands. Stated for an abstract float family, where the host
operations are opaque and the comparison is of the operands only. -/

section Generic

variable {F : FTy → Type} [FloatOps F] (U : Valuation τ sig (Elt F))
variable (x0 : (⟨Cert.ReferenceIdeal.S100000x128, .f32⟩ : BufTy).Contents (Elt F)) (x1 : (⟨Cert.ReferenceIdeal.S2x1600000, .i32⟩ : BufTy).Contents (Elt F)) (x2 : (⟨Cert.ReferenceIdeal.S128x128, .f32⟩ : BufTy).Contents (Elt F))
  (x3 : (⟨Cert.ReferenceIdeal.S128, .f32⟩ : BufTy).Contents (Elt F)) (x4 : (⟨Cert.ReferenceIdeal.S128x64, .f32⟩ : BufTy).Contents (Elt F)) (x5 : (⟨Cert.ReferenceIdeal.S64, .f32⟩ : BufTy).Contents (Elt F)) (x6 : (⟨Cert.ReferenceIdeal.S128x64, .f32⟩ : BufTy).Contents (Elt F)) (x7 : (⟨Cert.ReferenceIdeal.S64, .f32⟩ : BufTy).Contents (Elt F))

/-- The source-node list (the edge list's first row, then every node once for its self loop). -/
theorem step_v3 (h1 : U dr(main_arg1) = x1) : StableHlo.after hostOps0 U dr(main_v3) = val_main_v3 (F := F) x1 := by
  dsimp only [hostOps0]; after_results; rw [h1]; rfl
/-- The destination-node list. -/
theorem step_v6 (h1 : U dr(main_arg1) = x1) : StableHlo.after hostOps0 U dr(main_v6) = val_main_v6 (F := F) x1 := by
  dsimp only [hostOps0]; after_results; rw [h1]; rfl
/-- "The node has positive degree". -/
theorem step_v12 (h1 : U dr(main_arg1) = x1) : StableHlo.after hostOps0 U dr(main_v12) = val_main_v12 (F := F) x1 := by
  dsimp only [hostOps0]; after_results; rw [h1]; rfl
/-- The inverse square root of the degree (at least one). -/
theorem step_v15 (h1 : U dr(main_arg1) = x1) : StableHlo.after hostOps0 U dr(main_v15) = val_main_v15 (F := F) x1 := by
  dsimp only [hostOps0]; after_results; rw [h1]; rfl
theorem step_cst3 : StableHlo.after hostOps0 U dr(main_cst_3) = val_main_cst_3 (F := F) := by
  dsimp only [hostOps0]; after_results; rfl
/-- The per-node normalisation factor (zero where the degree is not positive). -/
theorem step_v16 (h12 : U dr(main_v12) = val_main_v12 (F := F) x1) (h15 : U dr(main_v15) = val_main_v15 (F := F) x1)
    (hc3 : U dr(main_cst_3) = val_main_cst_3 (F := F)) :
    StableHlo.after hostOps0_1 U dr(main_v16) = val_main_v16 (F := F) x1 := by
  dsimp only [hostOps0_1]; after_results
  simp only [TRef.ofBuf, TRef.toBuf, cast_eq]
  rw [h12, h15, hc3]
  rfl
/-- The edge weights: the product of the two end nodes' factors, as a column. -/
theorem step_v32 (h16 : U dr(main_v16) = val_main_v16 (F := F) x1) (h3 : U dr(main_v3) = val_main_v3 (F := F) x1)
    (h6 : U dr(main_v6) = val_main_v6 (F := F) x1) :
    StableHlo.after hostOps0_2 U dr(main_v32) = val_main_v32 (F := F) x1 := by
  dsimp only [hostOps0_2]; after_results_simp
  rw [h16, h3, h6]
  rfl
/-- The first layer's gather by source node. -/
theorem step_v40 (h33 : U dr(main_v33) = val_main_v33 (F := F) x0 x2) (h3 : U dr(main_v3) = val_main_v3 (F := F) x1) :
    StableHlo.after hostOps1 U dr(main_v40) = val_main_v40 (F := F) x0 x1 x2 := by
  dsimp only [hostOps1]; after_results
  rw [h33, h3]
  rfl

/-- The scatter-add by destination node and the bias, first layer. -/
theorem step_v47 (h6 : U dr(main_v6) = val_main_v6 (F := F) x1) (h41 : U dr(main_v41) = val_main_v42 (F := F) x0 x1 x2)
    (h3 : U dr(main_arg3) = x3) :
    StableHlo.after hostOps2 U dr(main_v47) = val_main_v48 (F := F) x0 x1 x2 x3 := by
  dsimp only [hostOps2]; after_results
  rw [h6, h41, h3]
  rfl

/-- The relu. -/
theorem step_v48 (h47 : U dr(main_v47) = val_main_v48 (F := F) x0 x1 x2 x3) :
    StableHlo.after hostOps2_1 U dr(main_v48) = val_main_v49 (F := F) x0 x1 x2 x3 := by
  dsimp only [hostOps2_1]; after_results
  simp only [TRef.ofBuf, TRef.toBuf, cast_eq]
  rw [h47]
  rfl

/-- The mean head's gather by source node. -/
theorem step_v56 (h49 : U dr(main_v49) = val_main_v50 (F := F) x0 x1 x2 x3 x4) (h3 : U dr(main_v3) = val_main_v3 (F := F) x1) :
    StableHlo.after hostOps3 U dr(main_v56) = val_main_v57 (F := F) x0 x1 x2 x3 x4 := by
  dsimp only [hostOps3]; after_results
  rw [h49, h3]
  rfl

/-- The mean head's scatter-add and bias. -/
theorem step_v63 (h6 : U dr(main_v6) = val_main_v6 (F := F) x1) (h57 : U dr(main_v57) = val_main_v59 (F := F) x0 x1 x2 x3 x4)
    (h5 : U dr(main_arg5) = x5) :
    StableHlo.after hostOps4 U dr(main_v63) = val_main_v65 (F := F) x0 x1 x2 x3 x4 x5 := by
  dsimp only [hostOps4]; after_results
  rw [h6, h57, h5]
  rfl

/-- The log-variance head's gather by source node. -/
theorem step_v71 (h64 : U dr(main_v64) = val_main_v66 (F := F) x0 x1 x2 x3 x6) (h3 : U dr(main_v3) = val_main_v3 (F := F) x1) :
    StableHlo.after hostOps5 U dr(main_v71) = val_main_v73 (F := F) x0 x1 x2 x3 x6 := by
  dsimp only [hostOps5]; after_results
  rw [h64, h3]
  rfl

/-- The log-variance head's scatter-add and bias. -/
theorem step_v78 (h6 : U dr(main_v6) = val_main_v6 (F := F) x1) (h72 : U dr(main_v72) = val_main_v75 (F := F) x0 x1 x2 x3 x6)
    (h7 : U dr(main_arg7) = x7) :
    StableHlo.after hostOps6 U dr(main_v78) = val_main_v81 (F := F) x0 x1 x2 x3 x6 x7 := by
  dsimp only [hostOps6]; after_results
  rw [h6, h72, h7]
  rfl

end Generic

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)
local notation "a6" => m ((c : Thread nD τ).loc main_arg6)
local notation "a7" => m ((c : Thread nD τ).loc main_arg7)

/-! ## The three host stretches before region 0: the index lists, the edge weights -/

/-- The source-node list (the edge list's first row, then every node once for its self loop). -/
theorem W1_v3 : W1 m ρ c dr(main_v3) = val_main_v3 (F := Ideal) a1 := step_v3 (W0 m ρ c) a1 rfl
/-- The destination-node list. -/
theorem W1_v6 : W1 m ρ c dr(main_v6) = val_main_v6 (F := Ideal) a1 := step_v6 (W0 m ρ c) a1 rfl
/-- "The node has positive degree". -/
theorem W1_v12 : W1 m ρ c dr(main_v12) = val_main_v12 (F := Ideal) a1 := step_v12 (W0 m ρ c) a1 rfl
/-- The inverse square root of the degree (at least one). -/
theorem W1_v15 : W1 m ρ c dr(main_v15) = val_main_v15 (F := Ideal) a1 := step_v15 (W0 m ρ c) a1 rfl
theorem W1_cst3 : W1 m ρ c dr(main_cst_3) = val_main_cst_3 (F := Ideal) := step_cst3 (W0 m ρ c)

/-- The per-node normalisation factor (zero where the degree is not positive). -/
theorem W2_v16 : W2 m ρ c dr(main_v16) = val_main_v16 (F := Ideal) a1 :=
  step_v16 (W1 m ρ c) a1 (W1_v12 m ρ c) (W1_v15 m ρ c) (W1_cst3 m ρ c)
theorem W2_v3 : W2 m ρ c dr(main_v3) = val_main_v3 (F := Ideal) a1 := by
  have h3 := W1_v3 m ρ c
  dsimp only [W2, hostOps0_1]
  generalize W1 m ρ c = U1 at h3 ⊢
  after_results; exact h3
theorem W2_v6 : W2 m ρ c dr(main_v6) = val_main_v6 (F := Ideal) a1 := by
  have h6 := W1_v6 m ρ c
  dsimp only [W2, hostOps0_1]
  generalize W1 m ρ c = U1 at h6 ⊢
  after_results; exact h6

theorem W3_v3 : W3 m ρ c dr(main_v3) = val_main_v3 (F := Ideal) a1 := by
  have h3 := W2_v3 m ρ c
  dsimp only [W3, hostOps0_2]
  generalize W2 m ρ c = U2 at h3 ⊢
  after_results; exact h3
theorem W3_v6 : W3 m ρ c dr(main_v6) = val_main_v6 (F := Ideal) a1 := by
  have h6 := W2_v6 m ρ c
  dsimp only [W3, hostOps0_2]
  generalize W2 m ρ c = U2 at h6 ⊢
  after_results; exact h6
/-- The edge weights: the product of the two end nodes' factors, as a column. -/
theorem W3_v32 : W3 m ρ c dr(main_v32) = val_main_v32 (F := Ideal) a1 :=
  step_v32 (W2 m ρ c) a1 (W2_v16 m ρ c) (W2_v3 m ρ c) (W2_v6 m ρ c)

/-- No host operation writes an argument array. -/
theorem W3_arg0 : W3 m ρ c dr(main_arg0) = a0 := by
  dsimp only [W3, W2, W1, W0, hostOps0_2, hostOps0_1, hostOps0]; after_results_simp <;> rfl
theorem W3_arg2 : W3 m ρ c dr(main_arg2) = a2 := by
  dsimp only [W3, W2, W1, W0, hostOps0_2, hostOps0_1, hostOps0]; after_results_simp <;> rfl
theorem W3_arg3 : W3 m ρ c dr(main_arg3) = a3 := by
  dsimp only [W3, W2, W1, W0, hostOps0_2, hostOps0_1, hostOps0]; after_results_simp <;> rfl
theorem W3_arg4 : W3 m ρ c dr(main_arg4) = a4 := by
  dsimp only [W3, W2, W1, W0, hostOps0_2, hostOps0_1, hostOps0]; after_results_simp <;> rfl
theorem W3_arg5 : W3 m ρ c dr(main_arg5) = a5 := by
  dsimp only [W3, W2, W1, W0, hostOps0_2, hostOps0_1, hostOps0]; after_results_simp <;> rfl
theorem W3_arg6 : W3 m ρ c dr(main_arg6) = a6 := by
  dsimp only [W3, W2, W1, W0, hostOps0_2, hostOps0_1, hostOps0]; after_results_simp <;> rfl
theorem W3_arg7 : W3 m ρ c dr(main_arg7) = a7 := by
  dsimp only [W3, W2, W1, W0, hostOps0_2, hostOps0_1, hostOps0]; after_results_simp <;> rfl

/-! ## Region 0: x · W1 -/

theorem W4_v33 : W4 m ρ c dr(main_v33) = val_main_v33 (F := Ideal) a0 a2 := by
  refine (W4_arr m ρ c 2).trans ?_
  rw [region0_out]
  show mmA (F := Ideal) (W3 m ρ c dr(main_arg0)) (W3 m ρ c dr(main_arg2)) = _
  rw [W3_arg0 m ρ c, W3_arg2 m ρ c]
  rfl
theorem W4_v3 : W4 m ρ c dr(main_v3) = val_main_v3 (F := Ideal) a1 :=
  (W4_of_ne m ρ c main_v3 (by decide)).trans (W3_v3 m ρ c)
theorem W4_v6 : W4 m ρ c dr(main_v6) = val_main_v6 (F := Ideal) a1 :=
  (W4_of_ne m ρ c main_v6 (by decide)).trans (W3_v6 m ρ c)
theorem W4_v32 : W4 m ρ c dr(main_v32) = val_main_v32 (F := Ideal) a1 :=
  (W4_of_ne m ρ c main_v32 (by decide)).trans (W3_v32 m ρ c)
theorem W4_arg3 : W4 m ρ c dr(main_arg3) = a3 := (W4_of_ne m ρ c main_arg3 (by decide)).trans (W3_arg3 m ρ c)
theorem W4_arg4 : W4 m ρ c dr(main_arg4) = a4 := (W4_of_ne m ρ c main_arg4 (by decide)).trans (W3_arg4 m ρ c)
theorem W4_arg5 : W4 m ρ c dr(main_arg5) = a5 := (W4_of_ne m ρ c main_arg5 (by decide)).trans (W3_arg5 m ρ c)
theorem W4_arg6 : W4 m ρ c dr(main_arg6) = a6 := (W4_of_ne m ρ c main_arg6 (by decide)).trans (W3_arg6 m ρ c)
theorem W4_arg7 : W4 m ρ c dr(main_arg7) = a7 := (W4_of_ne m ρ c main_arg7 (by decide)).trans (W3_arg7 m ρ c)

/-! ## The gather by source node -/

theorem W5_v40 : W5 m ρ c dr(main_v40) = val_main_v40 (F := Ideal) a0 a1 a2 :=
  step_v40 (W4 m ρ c) a0 a1 a2 (W4_v33 m ρ c) (W4_v3 m ρ c)
theorem W5_v3 : W5 m ρ c dr(main_v3) = val_main_v3 (F := Ideal) a1 := by
  dsimp only [W5, hostOps1]; after_results; exact W4_v3 m ρ c
theorem W5_v6 : W5 m ρ c dr(main_v6) = val_main_v6 (F := Ideal) a1 := by
  dsimp only [W5, hostOps1]; after_results; exact W4_v6 m ρ c
theorem W5_v32 : W5 m ρ c dr(main_v32) = val_main_v32 (F := Ideal) a1 := by
  dsimp only [W5, hostOps1]; after_results; exact W4_v32 m ρ c
theorem W5_arg3 : W5 m ρ c dr(main_arg3) = a3 := by dsimp only [W5, hostOps1]; after_results; exact W4_arg3 m ρ c
theorem W5_arg4 : W5 m ρ c dr(main_arg4) = a4 := by dsimp only [W5, hostOps1]; after_results; exact W4_arg4 m ρ c
theorem W5_arg5 : W5 m ρ c dr(main_arg5) = a5 := by dsimp only [W5, hostOps1]; after_results; exact W4_arg5 m ρ c
theorem W5_arg6 : W5 m ρ c dr(main_arg6) = a6 := by dsimp only [W5, hostOps1]; after_results; exact W4_arg6 m ρ c
theorem W5_arg7 : W5 m ρ c dr(main_arg7) = a7 := by dsimp only [W5, hostOps1]; after_results; exact W4_arg7 m ρ c

/-! ## Region 1: the scaled messages of the first layer -/

theorem W6_v41 : W6 m ρ c dr(main_v41) = val_main_v42 (F := Ideal) a0 a1 a2 := by
  refine (W6_arr m ρ c 2).trans ?_
  rw [region1_out]
  show scaleA (F := Ideal) (W5 m ρ c dr(main_v40)) (W5 m ρ c dr(main_v32)) = _
  rw [W5_v40 m ρ c, W5_v32 m ρ c]
  rfl
theorem W6_v3 : W6 m ρ c dr(main_v3) = val_main_v3 (F := Ideal) a1 :=
  (W6_of_ne m ρ c main_v3 (by decide)).trans (W5_v3 m ρ c)
theorem W6_v6 : W6 m ρ c dr(main_v6) = val_main_v6 (F := Ideal) a1 :=
  (W6_of_ne m ρ c main_v6 (by decide)).trans (W5_v6 m ρ c)
/-- The edge weights are an INPUT array of the region: it leaves them as it found them. -/
theorem W6_v32 : W6 m ρ c dr(main_v32) = val_main_v32 (F := Ideal) a1 :=
  ((W6_arr m ρ c 1).trans (((dat1 (V5 m ρ) c).arrAt_in 1 rfl _).trans (A_eq1 (V5 m ρ) c 1))).trans (W5_v32 m ρ c)
theorem W6_arg3 : W6 m ρ c dr(main_arg3) = a3 := (W6_of_ne m ρ c main_arg3 (by decide)).trans (W5_arg3 m ρ c)
theorem W6_arg4 : W6 m ρ c dr(main_arg4) = a4 := (W6_of_ne m ρ c main_arg4 (by decide)).trans (W5_arg4 m ρ c)
theorem W6_arg5 : W6 m ρ c dr(main_arg5) = a5 := (W6_of_ne m ρ c main_arg5 (by decide)).trans (W5_arg5 m ρ c)
theorem W6_arg6 : W6 m ρ c dr(main_arg6) = a6 := (W6_of_ne m ρ c main_arg6 (by decide)).trans (W5_arg6 m ρ c)
theorem W6_arg7 : W6 m ρ c dr(main_arg7) = a7 := (W6_of_ne m ρ c main_arg7 (by decide)).trans (W5_arg7 m ρ c)

/-! ## The scatter-add by destination node, the bias, the relu: the hidden layer -/

theorem W7_v47 : W7 m ρ c dr(main_v47) = val_main_v48 (F := Ideal) a0 a1 a2 a3 :=
  step_v47 (W6 m ρ c) a0 a1 a2 a3 (W6_v6 m ρ c) (W6_v41 m ρ c) (W6_arg3 m ρ c)
theorem W8_v48 : W8 m ρ c dr(main_v48) = val_main_v49 (F := Ideal) a0 a1 a2 a3 :=
  step_v48 (W7 m ρ c) a0 a1 a2 a3 (W7_v47 m ρ c)
theorem W8_v3 : W8 m ρ c dr(main_v3) = val_main_v3 (F := Ideal) a1 := by
  dsimp only [W8, W7, hostOps2_1, hostOps2]; after_results; exact W6_v3 m ρ c
theorem W8_v6 : W8 m ρ c dr(main_v6) = val_main_v6 (F := Ideal) a1 := by
  dsimp only [W8, W7, hostOps2_1, hostOps2]; after_results; exact W6_v6 m ρ c
theorem W8_v32 : W8 m ρ c dr(main_v32) = val_main_v32 (F := Ideal) a1 := by
  dsimp only [W8, W7, hostOps2_1, hostOps2]; after_results; exact W6_v32 m ρ c
theorem W8_arg4 : W8 m ρ c dr(main_arg4) = a4 := by dsimp only [W8, W7, hostOps2_1, hostOps2]; after_results; exact W6_arg4 m ρ c
theorem W8_arg5 : W8 m ρ c dr(main_arg5) = a5 := by dsimp only [W8, W7, hostOps2_1, hostOps2]; after_results; exact W6_arg5 m ρ c
theorem W8_arg6 : W8 m ρ c dr(main_arg6) = a6 := by dsimp only [W8, W7, hostOps2_1, hostOps2]; after_results; exact W6_arg6 m ρ c
theorem W8_arg7 : W8 m ρ c dr(main_arg7) = a7 := by dsimp only [W8, W7, hostOps2_1, hostOps2]; after_results; exact W6_arg7 m ρ c

/-! ## Region 2: h · Wmu -/

theorem W9_v49 : W9 m ρ c dr(main_v49) = val_main_v50 (F := Ideal) a0 a1 a2 a3 a4 := by
  refine (W9_arr m ρ c 2).trans ?_
  rw [region2_out]
  show mmB (F := Ideal) (W8 m ρ c dr(main_v48)) (W8 m ρ c dr(main_arg4)) = _
  rw [W8_v48 m ρ c, W8_arg4 m ρ c]
  rfl
theorem W9_v3 : W9 m ρ c dr(main_v3) = val_main_v3 (F := Ideal) a1 :=
  (W9_of_ne m ρ c main_v3 (by decide)).trans (W8_v3 m ρ c)
theorem W9_v6 : W9 m ρ c dr(main_v6) = val_main_v6 (F := Ideal) a1 :=
  (W9_of_ne m ρ c main_v6 (by decide)).trans (W8_v6 m ρ c)
theorem W9_v32 : W9 m ρ c dr(main_v32) = val_main_v32 (F := Ideal) a1 :=
  (W9_of_ne m ρ c main_v32 (by decide)).trans (W8_v32 m ρ c)
/-- The hidden layer is an INPUT array of the region: it leaves it as it found it. -/
theorem W9_v48 : W9 m ρ c dr(main_v48) = val_main_v49 (F := Ideal) a0 a1 a2 a3 :=
  ((W9_arr m ρ c 0).trans (((dat2 (V8 m ρ) c).arrAt_in 0 rfl _).trans (A_eq2 (V8 m ρ) c 0))).trans (W8_v48 m ρ c)
theorem W9_arg5 : W9 m ρ c dr(main_arg5) = a5 := (W9_of_ne m ρ c main_arg5 (by decide)).trans (W8_arg5 m ρ c)
theorem W9_arg6 : W9 m ρ c dr(main_arg6) = a6 := (W9_of_ne m ρ c main_arg6 (by decide)).trans (W8_arg6 m ρ c)
theorem W9_arg7 : W9 m ρ c dr(main_arg7) = a7 := (W9_of_ne m ρ c main_arg7 (by decide)).trans (W8_arg7 m ρ c)

/-! ## The mean head's gather -/

theorem W10_v56 : W10 m ρ c dr(main_v56) = val_main_v57 (F := Ideal) a0 a1 a2 a3 a4 :=
  step_v56 (W9 m ρ c) a0 a1 a2 a3 a4 (W9_v49 m ρ c) (W9_v3 m ρ c)
theorem W10_v6 : W10 m ρ c dr(main_v6) = val_main_v6 (F := Ideal) a1 := by
  dsimp only [W10, hostOps3]; after_results; exact W9_v6 m ρ c
theorem W10_v3 : W10 m ρ c dr(main_v3) = val_main_v3 (F := Ideal) a1 := by
  dsimp only [W10, hostOps3]; after_results; exact W9_v3 m ρ c
theorem W10_v32 : W10 m ρ c dr(main_v32) = val_main_v32 (F := Ideal) a1 := by
  dsimp only [W10, hostOps3]; after_results; exact W9_v32 m ρ c
theorem W10_v48 : W10 m ρ c dr(main_v48) = val_main_v49 (F := Ideal) a0 a1 a2 a3 := by
  dsimp only [W10, hostOps3]; after_results; exact W9_v48 m ρ c
theorem W10_arg5 : W10 m ρ c dr(main_arg5) = a5 := by dsimp only [W10, hostOps3]; after_results; exact W9_arg5 m ρ c
theorem W10_arg6 : W10 m ρ c dr(main_arg6) = a6 := by dsimp only [W10, hostOps3]; after_results; exact W9_arg6 m ρ c
theorem W10_arg7 : W10 m ρ c dr(main_arg7) = a7 := by dsimp only [W10, hostOps3]; after_results; exact W9_arg7 m ρ c

/-! ## Region 3: the mean head's scaled messages -/

theorem W11_v57 : W11 m ρ c dr(main_v57) = val_main_v59 (F := Ideal) a0 a1 a2 a3 a4 := by
  refine (W11_arr m ρ c 2).trans ?_
  rw [region3_out]
  show scaleB (F := Ideal) (W10 m ρ c dr(main_v56)) (W10 m ρ c dr(main_v32)) = _
  rw [W10_v56 m ρ c, W10_v32 m ρ c]
  rfl
theorem W11_v3 : W11 m ρ c dr(main_v3) = val_main_v3 (F := Ideal) a1 :=
  (W11_of_ne m ρ c main_v3 (by decide)).trans (W10_v3 m ρ c)
theorem W11_v6 : W11 m ρ c dr(main_v6) = val_main_v6 (F := Ideal) a1 :=
  (W11_of_ne m ρ c main_v6 (by decide)).trans (W10_v6 m ρ c)
theorem W11_v32 : W11 m ρ c dr(main_v32) = val_main_v32 (F := Ideal) a1 :=
  ((W11_arr m ρ c 1).trans (((dat3 (V10 m ρ) c).arrAt_in 1 rfl _).trans (A_eq3 (V10 m ρ) c 1))).trans (W10_v32 m ρ c)
theorem W11_v48 : W11 m ρ c dr(main_v48) = val_main_v49 (F := Ideal) a0 a1 a2 a3 :=
  (W11_of_ne m ρ c main_v48 (by decide)).trans (W10_v48 m ρ c)
theorem W11_arg5 : W11 m ρ c dr(main_arg5) = a5 := (W11_of_ne m ρ c main_arg5 (by decide)).trans (W10_arg5 m ρ c)
theorem W11_arg6 : W11 m ρ c dr(main_arg6) = a6 := (W11_of_ne m ρ c main_arg6 (by decide)).trans (W10_arg6 m ρ c)
theorem W11_arg7 : W11 m ρ c dr(main_arg7) = a7 := (W11_of_ne m ρ c main_arg7 (by decide)).trans (W10_arg7 m ρ c)

/-! ## The mean head's scatter-add and bias: the first result -/

theorem W12_v63 : W12 m ρ c dr(main_v63) = val_main_v65 (F := Ideal) a0 a1 a2 a3 a4 a5 :=
  step_v63 (W11 m ρ c) a0 a1 a2 a3 a4 a5 (W11_v6 m ρ c) (W11_v57 m ρ c) (W11_arg5 m ρ c)
theorem W12_v3 : W12 m ρ c dr(main_v3) = val_main_v3 (F := Ideal) a1 := by
  dsimp only [W12, hostOps4]; after_results; exact W11_v3 m ρ c
theorem W12_v6 : W12 m ρ c dr(main_v6) = val_main_v6 (F := Ideal) a1 := by
  dsimp only [W12, hostOps4]; after_results; exact W11_v6 m ρ c
theorem W12_v32 : W12 m ρ c dr(main_v32) = val_main_v32 (F := Ideal) a1 := by
  dsimp only [W12, hostOps4]; after_results; exact W11_v32 m ρ c
theorem W12_v48 : W12 m ρ c dr(main_v48) = val_main_v49 (F := Ideal) a0 a1 a2 a3 := by
  dsimp only [W12, hostOps4]; after_results; exact W11_v48 m ρ c
theorem W12_arg6 : W12 m ρ c dr(main_arg6) = a6 := by dsimp only [W12, hostOps4]; after_results; exact W11_arg6 m ρ c
theorem W12_arg7 : W12 m ρ c dr(main_arg7) = a7 := by dsimp only [W12, hostOps4]; after_results; exact W11_arg7 m ρ c

/-! ## Region 4: h · Wlv -/

theorem W13_v64 : W13 m ρ c dr(main_v64) = val_main_v66 (F := Ideal) a0 a1 a2 a3 a6 := by
  refine (W13_arr m ρ c 2).trans ?_
  rw [region4_out]
  show mmB (F := Ideal) (W12 m ρ c dr(main_v48)) (W12 m ρ c dr(main_arg6)) = _
  rw [W12_v48 m ρ c, W12_arg6 m ρ c]
  rfl
theorem W13_v3 : W13 m ρ c dr(main_v3) = val_main_v3 (F := Ideal) a1 :=
  (W13_of_ne m ρ c main_v3 (by decide)).trans (W12_v3 m ρ c)
theorem W13_v6 : W13 m ρ c dr(main_v6) = val_main_v6 (F := Ideal) a1 :=
  (W13_of_ne m ρ c main_v6 (by decide)).trans (W12_v6 m ρ c)
theorem W13_v32 : W13 m ρ c dr(main_v32) = val_main_v32 (F := Ideal) a1 :=
  (W13_of_ne m ρ c main_v32 (by decide)).trans (W12_v32 m ρ c)
theorem W13_v63 : W13 m ρ c dr(main_v63) = val_main_v65 (F := Ideal) a0 a1 a2 a3 a4 a5 :=
  (W13_of_ne m ρ c main_v63 (by decide)).trans (W12_v63 m ρ c)
theorem W13_arg7 : W13 m ρ c dr(main_arg7) = a7 := (W13_of_ne m ρ c main_arg7 (by decide)).trans (W12_arg7 m ρ c)

/-! ## The log-variance head's gather -/

theorem W14_v71 : W14 m ρ c dr(main_v71) = val_main_v73 (F := Ideal) a0 a1 a2 a3 a6 :=
  step_v71 (W13 m ρ c) a0 a1 a2 a3 a6 (W13_v64 m ρ c) (W13_v3 m ρ c)
theorem W14_v6 : W14 m ρ c dr(main_v6) = val_main_v6 (F := Ideal) a1 := by
  dsimp only [W14, hostOps5]; after_results; exact W13_v6 m ρ c
theorem W14_v32 : W14 m ρ c dr(main_v32) = val_main_v32 (F := Ideal) a1 := by
  dsimp only [W14, hostOps5]; after_results; exact W13_v32 m ρ c
theorem W14_v63 : W14 m ρ c dr(main_v63) = val_main_v65 (F := Ideal) a0 a1 a2 a3 a4 a5 := by
  dsimp only [W14, hostOps5]; after_results; exact W13_v63 m ρ c
theorem W14_arg7 : W14 m ρ c dr(main_arg7) = a7 := by dsimp only [W14, hostOps5]; after_results; exact W13_arg7 m ρ c

/-! ## Region 5: the log-variance head's scaled messages -/

theorem W15_v72 : W15 m ρ c dr(main_v72) = val_main_v75 (F := Ideal) a0 a1 a2 a3 a6 := by
  refine (W15_arr m ρ c 2).trans ?_
  rw [region5_out]
  show scaleB (F := Ideal) (W14 m ρ c dr(main_v71)) (W14 m ρ c dr(main_v32)) = _
  rw [W14_v71 m ρ c, W14_v32 m ρ c]
  rfl
theorem W15_v6 : W15 m ρ c dr(main_v6) = val_main_v6 (F := Ideal) a1 :=
  (W15_of_ne m ρ c main_v6 (by decide)).trans (W14_v6 m ρ c)
theorem W15_v63 : W15 m ρ c dr(main_v63) = val_main_v65 (F := Ideal) a0 a1 a2 a3 a4 a5 :=
  (W15_of_ne m ρ c main_v63 (by decide)).trans (W14_v63 m ρ c)
theorem W15_arg7 : W15 m ρ c dr(main_arg7) = a7 := (W15_of_ne m ρ c main_arg7 (by decide)).trans (W14_arg7 m ρ c)

/-! ## The two results at the last boundary -/

/-- The second result: the log-variance head's scatter-add and bias. -/
theorem kernel_out1 : W16 m ρ c dr(main_v78) = val_main_v81 (F := Ideal) a0 a1 a2 a3 a6 a7 :=
  step_v78 (W15 m ρ c) a0 a1 a2 a3 a6 a7 (W15_v6 m ρ c) (W15_v72 m ρ c) (W15_arg7 m ρ c)
/-- The first result, untouched since the mean head wrote it. -/
theorem kernel_out0 : W16 m ρ c dr(main_v63) = val_main_v65 (F := Ideal) a0 a1 a2 a3 a4 a5 := by
  dsimp only [W16, hostOps6]; after_results; exact W15_v63 m ρ c

end Cert.KernelIdeal.Chain

end
-- ==== Proof.lean ====
/-
  The certificate of a three-layer graph convolution (a variational graph encoder: one hidden layer, then a mean head and a
  log-variance head) whose dense products and edge scalings run as six tiled TensorCore regions, against its plain reference.

  Both programs compute, for each layer, `scatter_add_dst( gather_src(h · W) ⊙ nrm ) + b`, with the same index lists, the same
  edge weights `nrm` and the same host gather / scatter-add operations; the hidden layer passes through a relu. They differ only
  in WHO computes `h · W` and `· ⊙ nrm`: the reference by one `dot_general` and one broadcast-and-multiply on whole arrays, the
  kernel program block by block (rows of `h` in blocks of 5000 with bf16-rounded operands, which rounding is the identity over
  the extended reals; edges in blocks of 10000). A block of the product of two arrays is the product of the matching row block
  with the whole right factor, and a block of a row-scaled array is the row-scaled block, so each region leaves exactly the
  reference's array (Proof/RegionMM.lean, Proof/RegionScale.lean); no law of arithmetic beyond reading a sum index by index is
  used, and the finiteness of the inputs is never needed. Proof/Chain.lean carries this through the sixteen segments of the
  kernel program; Proof/RefSide.lean reads the reference.

  * the three frames: the two kernel programs' from their generated frame certificates, the reference's from its run;
  * `preserves`: the idealized kernel is the kernel's own text (no rewrite was applied), so there is nothing to state;
  * `algebraic`: both runs end with the two results at the reference's last stages of the arguments.
-/
import proofs.«128578_j36627481101161_1_alg».proof.Defs
import proofs.«128578_j36627481101161_1_alg».proof.Proof.Gen.Kernel
import proofs.«128578_j36627481101161_1_alg».proof.Proof.Gen.Kernel.Frame
import proofs.«128578_j36627481101161_1_alg».proof.Proof.Gen.KernelIdeal
import proofs.«128578_j36627481101161_1_alg».proof.Proof.Gen.KernelIdeal.Frame
import proofs.«128578_j36627481101161_1_alg».proof.Proof.Gen.ReferenceIdeal
import proofs.«128578_j36627481101161_1_alg».proof.Proof.Gen.Pre_finite_inputs
import proofs.«128578_j36627481101161_1_alg».proof.Proof.RunValues
import proofs.«128578_j36627481101161_1_alg».proof.Proof.RefSide
import proofs.«128578_j36627481101161_1_alg».proof.Proof.Chain
import Idealize.ShloMosaic.Adequacy
import Idealize.ShloMosaic.Init

noncomputable section

namespace Cert.Proof

open Idealize.ShloMosaic Idealize.ShloMosaic.TcCoe Idealize.SL.Sem
open Cert.ReferenceIdeal.ReadP (val_main_v65 val_main_v81)

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.RefSide.ref_run (F := Ideal) m ρ)

theorem preserves : Cert.preserves_Kernel_KernelIdeal := trivial

/-- Both programs end with the mean at the reference's stage `val_main_v65` and the log-variance at `val_main_v81` of the
    (agreeing) arguments: the kernel program by the chain through its segments, the reference by its run. -/
theorem algebraic : Cert.algebraic_KernelIdeal_ReferenceIdeal := by
  intro m ρ m' ρ' _ hagree
  refine ⟨fun c => val_main_v65 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunValues.run_values (F := Ideal) m ρ)
    exact ⟨(h c).1.trans (Cert.KernelIdeal.Chain.kernel_out0 m ρ c), (h c).2.1.trans (Cert.KernelIdeal.Chain.kernel_out1 m ρ c), (h c).2.2⟩
  · refine (θ_run Cert.ReferenceIdeal.defs _ _).mono (fun r h c => ?_) (Cert.ReferenceIdeal.RefSide.ref_run (F := Ideal) m' ρ')
    obtain ⟨h0, h1, h2, h3, h4, h5, h6, h7⟩ := hagree c
    refine ⟨(h c).1.trans ?_, (h c).2.1.trans ?_, (h c).2.2⟩
    · rw [h0, h1, h2, h3, h4, h5]
    · rw [h0, h1, h2, h3, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
